-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x500000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S1x500000 : Shape := ⟨2, ![1, 500000]⟩
abbrev S500000 : Shape := ⟨1, ![500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S5000x128 : Shape := ⟨2, ![5000, 128]⟩
abbrev S1x128 : Shape := ⟨2, ![1, 128]⟩
abbrev S550000x128 : Shape := ⟨2, ![550000, 128]⟩
abbrev S5000 : Shape := ⟨1, ![5000]⟩
abbrev S5000x1 : Shape := ⟨2, ![5000, 1]⟩

abbrev nBuf : Space → Nat
  | .hbm => 83
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S50000, .i32⟩
  | .hbm, ⟨13, _⟩ => ⟨S550000, .i32⟩
  | .hbm, ⟨14, _⟩ => ⟨S550000, .i32⟩
  | .hbm, ⟨15, _⟩ => ⟨S_, .f32⟩
  | .hbm, ⟨16, _⟩ => ⟨S550000, .f32⟩
  | .hbm, ⟨17, _⟩ => ⟨S_, .f32⟩
  | .hbm, ⟨18, _⟩ => ⟨S50000, .f32⟩
  | .hbm, ⟨19, _⟩ => ⟨S550000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S550000, .i32⟩
  | .hbm, ⟨31, _⟩ => ⟨S550000, .i1⟩
  | .hbm, ⟨32, _⟩ => ⟨S_, .i32⟩
  | .hbm, ⟨33, _⟩ => ⟨S550000, .i32⟩
  | .hbm, ⟨34, _⟩ => ⟨S550000, .i32⟩
  | .hbm, ⟨35, _⟩ => ⟨S550000, .i32⟩
  | .hbm, ⟨36, _⟩ => ⟨S550000x1, .i32⟩
  | .hbm, ⟨37, _⟩ => ⟨S550000, .f32⟩
  | .hbm, ⟨38, _⟩ => ⟨S_, .i32⟩
  | .hbm, ⟨39, _⟩ => ⟨S550000, .i32⟩
  | .hbm, ⟨40, _⟩ => ⟨S550000, .i1⟩
  | .hbm, ⟨41, _⟩ => ⟨S_, .i32⟩
  | .hbm, ⟨42, _⟩ => ⟨S550000, .i32⟩
  | .hbm, ⟨43, _⟩ => ⟨S550000, .i32⟩
  | .hbm, ⟨44, _⟩ => ⟨S550000, .i32⟩
  | .hbm, ⟨45, _⟩ => ⟨S550000x1, .i32⟩
  | .hbm, ⟨46, _⟩ => ⟨S550000, .f32⟩
  | .hbm, ⟨47, _⟩ => ⟨S550000, .f32⟩
  | .hbm, ⟨48, _⟩ => ⟨S50000x128, .f32⟩
  | .hbm, ⟨49, _⟩ => ⟨S550000x1, .f32⟩
  | .hbm, ⟨50, _⟩ => ⟨S_, .i32⟩
  | .hbm, ⟨51, _⟩ => ⟨S550000, .i32⟩
  | .hbm, ⟨52, _⟩ => ⟨S550000, .i1⟩
  | .hbm, ⟨53, _⟩ => ⟨S_, .i32⟩
  | .hbm, ⟨54, _⟩ => ⟨S550000, .i32⟩
  | .hbm, ⟨55, _⟩ => ⟨S550000, .i32⟩
  | .hbm, ⟨56, _⟩ => ⟨S550000, .i32⟩
  | .hbm, ⟨57, _⟩ => ⟨S550000x1, .i32⟩
  | .hbm, ⟨58, _⟩ => ⟨S550000x128, .f32⟩
  | .hbm, ⟨59, _⟩ => ⟨S550000x128, .f32⟩
  | .hbm, ⟨60, _⟩ => ⟨S550000x128, .f32⟩
  | .hbm, ⟨61, _⟩ => ⟨S_, .f32⟩
  | .hbm, ⟨62, _⟩ => ⟨S50000x128, .f32⟩
  | .hbm, ⟨63, _⟩ => ⟨S550000x1, .i32⟩
  | .hbm, ⟨64, _⟩ => ⟨S50000x128, .f32⟩
  | .hbm, ⟨65, _⟩ => ⟨S50000x128, .f32⟩
  | .hbm, ⟨66, _⟩ => ⟨S550000x1, .f32⟩
  | .hbm, ⟨67, _⟩ => ⟨S_, .i32⟩
  | .hbm, ⟨68, _⟩ => ⟨S550000, .i32⟩
  | .hbm, ⟨69, _⟩ => ⟨S550000, .i1⟩
  | .hbm, ⟨70, _⟩ => ⟨S_, .i32⟩
  | .hbm, ⟨71, _⟩ => ⟨S550000, .i32⟩
  | .hbm, ⟨72, _⟩ => ⟨S550000, .i32⟩
  | .hbm, ⟨73, _⟩ => ⟨S550000, .i32⟩
  | .hbm, ⟨74, _⟩ => ⟨S550000x1, .i32⟩
  | .hbm, ⟨75, _⟩ => ⟨S550000x128, .f32⟩
  | .hbm, ⟨76, _⟩ => ⟨S550000x128, .f32⟩
  | .hbm, ⟨77, _⟩ => ⟨S550000x128, .f32⟩
  | .hbm, ⟨78, _⟩ => ⟨S_, .f32⟩
  | .hbm, ⟨79, _⟩ => ⟨S50000x128, .f32⟩
  | .hbm, ⟨80, _⟩ => ⟨S550000x1, .i32⟩
  | .hbm, ⟨81, _⟩ => ⟨S50000x128, .f32⟩
  | .hbm, ⟨82, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S5000x128_S128x128_S5000x128_1_0_0_1_n_n_wf : DotDims.WF S5000x128 S128x128 S5000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S1x128 : Shape := ⟨2, ![1, 128]⟩
abbrev S1x500000 : Shape := ⟨2, ![1, 500000]⟩
abbrev S500000 : Shape := ⟨1, ![500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S50000x1 : Shape := ⟨2, ![50000, 1]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x500000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S50000x128, .f32⟩
  | 9 => ⟨S1x128, .f32⟩
  | 10 => ⟨S50000x128, .f32⟩
  | 11 => ⟨S50000x128, .f32⟩
  | 12 => ⟨S1x500000, .i32⟩
  | 13 => ⟨S500000, .i32⟩
  | 14 => ⟨S1x500000, .i32⟩
  | 15 => ⟨S500000, .i32⟩
  | 16 => ⟨S50000, .i32⟩
  | 17 => ⟨S550000, .i32⟩
  | 18 => ⟨S550000, .i32⟩
  | 19 => ⟨S_, .f32⟩
  | 20 => ⟨S550000, .f32⟩
  | 21 => ⟨S_, .f32⟩
  | 22 => ⟨S50000, .f32⟩
  | 23 => ⟨S550000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S550000, .i32⟩
  | 35 => ⟨S550000, .i1⟩
  | 36 => ⟨S_, .i32⟩
  | 37 => ⟨S550000, .i32⟩
  | 38 => ⟨S550000, .i32⟩
  | 39 => ⟨S550000, .i32⟩
  | 40 => ⟨S550000x1, .i32⟩
  | 41 => ⟨S550000, .f32⟩
  | 42 => ⟨S_, .i32⟩
  | 43 => ⟨S550000, .i32⟩
  | 44 => ⟨S550000, .i1⟩
  | 45 => ⟨S_, .i32⟩
  | 46 => ⟨S550000, .i32⟩
  | 47 => ⟨S550000, .i32⟩
  | 48 => ⟨S550000, .i32⟩
  | 49 => ⟨S550000x1, .i32⟩
  | 50 => ⟨S550000, .f32⟩
  | 51 => ⟨S550000, .f32⟩
  | 52 => ⟨S550000x1, .f32⟩
  | 53 => ⟨S_, .i32⟩
  | 54 => ⟨S550000, .i32⟩
  | 55 => ⟨S550000, .i1⟩
  | 56 => ⟨S_, .i32⟩
  | 57 => ⟨S550000, .i32⟩
  | 58 => ⟨S550000, .i32⟩
  | 59 => ⟨S550000, .i32⟩
  | 60 => ⟨S550000x1, .i32⟩
  | 61 => ⟨S550000x128, .f32⟩
  | 62 => ⟨S550000x128, .f32⟩
  | 63 => ⟨S550000x128, .f32⟩
  | 64 => ⟨S_, .f32⟩
  | 65 => ⟨S50000x128, .f32⟩
  | 66 => ⟨S550000x1, .i32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S1x500000, .i32⟩
  | 76 => ⟨S500000, .i32⟩
  | 77 => ⟨S1x500000, .i32⟩
  | 78 => ⟨S500000, .i32⟩
  | 79 => ⟨S50000, .i32⟩
  | 80 => ⟨S550000, .i32⟩
  | 81 => ⟨S550000, .i32⟩
  | 82 => ⟨S_, .f32⟩
  | 83 => ⟨S550000, .f32⟩
  | 84 => ⟨S_, .f32⟩
  | 85 => ⟨S50000, .f32⟩
  | 86 => ⟨S550000x1, .i32⟩
  | 87 => ⟨S50000, .f32⟩
  | 88 => ⟨S_, .f32⟩
  | 89 => ⟨S50000, .f32⟩
  | 90 => ⟨S50000, .i1⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S550000, .i32⟩
  | 98 => ⟨S550000, .i1⟩
  | 99 => ⟨S_, .i32⟩
  | 100 => ⟨S550000, .i32⟩
  | 101 => ⟨S550000, .i32⟩
  | 102 => ⟨S550000, .i32⟩
  | 103 => ⟨S550000x1, .i32⟩
  | 104 => ⟨S550000, .f32⟩
  | 105 => ⟨S_, .i32⟩
  | 106 => ⟨S550000, .i32⟩
  | 107 => ⟨S550000, .i1⟩
  | 108 => ⟨S_, .i32⟩
  | 109 => ⟨S550000, .i32⟩
  | 110 => ⟨S550000, .i32⟩
  | 111 => ⟨S550000, .i32⟩
  | 112 => ⟨S550000x1, .i32⟩
  | 113 => ⟨S550000, .f32⟩
  | 114 => ⟨S550000, .f32⟩
  | 115 => ⟨S550000x1, .f32⟩
  | 116 => ⟨S_, .i32⟩
  | 117 => ⟨S550000, .i32⟩
  | 118 => ⟨S550000, .i1⟩
  | 119 => ⟨S_, .i32⟩
  | 120 => ⟨S550000, .i32⟩
  | 121 => ⟨S550000, .i32⟩
  | 122 => ⟨S550000, .i32⟩
  | 123 => ⟨S550000x1, .i32⟩
  | 124 => ⟨S550000x128, .f32⟩
  | 125 => ⟨S550000x128, .f32⟩
  | 126 => ⟨S550000x128, .f32⟩
  | 127 => ⟨S_, .f32⟩
  | _ => ⟨S50000x128, .f32⟩

abbrev hbmTy0_1 (i : Nat) : BufTy := match i % 128 with
  | 0 => ⟨S50000x128, .f32⟩
  | 1 => ⟨S550000x1, .i32⟩
  | 2 => ⟨S50000x128, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x128, .f32⟩
  | 10 => ⟨S50000x128, .f32⟩
  | 11 => ⟨S50000x128, .f32⟩
  | 12 => ⟨S_, .f32⟩
  | 13 => ⟨S50000, .f32⟩
  | 14 => ⟨S50000x1, .f32⟩
  | 15 => ⟨S_, .f32⟩
  | 16 => ⟨S50000x1, .f32⟩
  | 17 => ⟨S50000x1, .f32⟩
  | 18 => ⟨S50000x128, .f32⟩
  | 19 => ⟨S50000x128, .f32⟩
  | 20 => ⟨S_, .f32⟩
  | 21 => ⟨S50000x1, .f32⟩
  | 22 => ⟨S50000x1, .f32⟩
  | 23 => ⟨S50000x1, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_c_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_19 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_v96 : Ref sig .tc := ⟨.hbm, 133, rfl⟩
abbrev main_cst_21 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_22 : Ref sig .tc := ⟨.hbm, 140, rfl⟩
abbrev main_v102 : Ref sig .tc := ⟨.hbm, 141, rfl⟩
abbrev main_v103 : Ref sig .tc := ⟨.hbm, 142, rfl⟩
abbrev main_cst_23 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_24 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.HostForms.lean ====
/-
  The stages of the graph encoder, written as the host computes them.

  From the edge list e (two rows of 500000 node numbers) the graph part builds, once, the source and target lists with
  one self loop per node appended, the in-degree of every node as a scatter-add of ones, its inverse square root where
  the degree is positive, and per edge the product of the two end points' inverse roots. One message-passing step
  gathers the source rows of a feature array, scales each by its edge's factor and scatter-adds them at the targets.
  The dense stages are
  * the linear layer   x ↦ x·W + b   (a matrix product over the 128 features, the bias laid along the rows);
  * the rectifier      a ↦ max(a, 0);
  * the row normalisation  a ↦ (a − μ)·(σ² + ε)^(−1/2)·γ + β,  μ the mean of the row's 128 entries and σ² the mean of
    the squared deviations, both as a sum divided by 128.
  The encoder is two rounds of linear layer then message passing, the rectifier between them, the normalisation last.

  At the extended reals each dense stage is read at an index (p, q): the linear layer as the finite sum
  Σ_k x(p, k)·W(k, q) + b(q), the normalisation as a function of row p alone.
-/
import proofs.«126946_j29618094473824_1_alg».proof.ReferenceIdeal
import proofs.«126946_j29618094473824_1_alg».proof.Proof.Gen.ReferenceIdeal
import proofs.«126946_j29618094473824_1_alg».proof.Proof.LibPlainDot
import Idealize.ShloMosaic.PureOps.Ideal.Laws
import Idealize.ShloMosaic.Lib.ValueIdx
import Idealize.ShloMosaic.Lib.Pipeline.Value

noncomputable section

namespace Cert.ReferenceIdeal.Forms

open Idealize.ShloMosaic Idealize.ShloMosaic.ValueIdx Cert.ReferenceIdeal Cert.ReferenceIdeal.Gen

variable {F : FTy → Type} [FloatOps F]

/-! ## The graph part -/

/-- Row `r` of the edge list as a list of 500000 node numbers, then the 50000 self loops 0, 1, …. -/
def endsOf (r : Nat) (hr : S2x500000.Slices ![r, 0] S1x500000) (e : IVec S2x500000 32) : IVec S550000 32 :=
  concatenate S550000 0 [⟨S500000, shapeCast _ (extractStridedSlice S1x500000 ![r, 0] e hr) shapeCasts_S1x500000_S500000⟩,
    ⟨S50000, iotaInDim S50000 32 0⟩] concatenates_S500000_S50000_S550000_d0

/-- The sources (row 0) and the targets (row 1), self loops appended. -/
def srcOf (e : IVec S2x500000 32) : IVec S550000 32 := endsOf 0 slices_S2x500000_S1x500000_0_0 e
def dstOf (e : IVec S2x500000 32) : IVec S550000 32 := endsOf 1 slices_S2x500000_S1x500000_1_0 e

/-- A node number below zero counted from the end: i + 50000 where i < 0, else i; as a column of indices. -/
def wrapCol (i : IVec S550000 32) : IVec S550000x1 32 :=
  broadcastInDim S550000x1 ![0] bcast_S550000_S550000x1_0
    (select (cmpi .slt i (broadcastInDim S550000 ![] bcast_S_S550000 (constantI S_ 32 0#32)))
      (addi i (broadcastInDim S550000 ![] bcast_S_S550000 (constantI S_ 32 50000#32))) i)

/-- The in-degree of every node: ones scatter-added at the targets, from zero. -/
def degOf (e : IVec S2x500000 32) : FVec F S50000 .f32 :=
  Host.scatterAdd scatter_S50000_S550000x1_S550000_n_0_0_1
    (broadcastInDim S50000 ![] bcast_S_S50000 (constant S_ .f32 0x00000000#32))
    (broadcastInDim S550000x1 ![0] bcast_S550000_S550000x1_0 (dstOf e))
    (broadcastInDim S550000 ![] bcast_S_S550000 (constant S_ .f32 0x3F800000#32))

/-- deg^(−1/2) where the degree is positive, zero elsewhere. -/
def dinvOf (e : IVec S2x500000 32) : FVec F S50000 .f32 :=
  select (cmpf (F := F) .ogt (degOf e) (broadcastInDim S50000 ![] bcast_S_S50000 (constant S_ .f32 0x00000000#32)))
    (Host.rsqrt (degOf e)) (broadcastInDim S50000 ![] bcast_S_S50000 (id (constant S_ .f32 0x00000000#32)))

/-- Per edge, the product of the inverse roots at its source and at its target. -/
def normOf (e : IVec S2x500000 32) : FVec F S550000 .f32 :=
  mulf (Host.gather gather_S50000_S550000x1_S550000_n_0_n_n_0_1_1 (dinvOf e) (wrapCol (srcOf e)))
    (Host.gather gather_S50000_S550000x1_S550000_n_0_n_n_0_1_1 (dinvOf e) (wrapCol (dstOf e)))

/-- One message-passing step: gather the source rows of `h`, scale by the edge factors, scatter-add at the targets. -/
def aggregate (norm : FVec F S550000 .f32) (src dst : IVec S550000 32) (h : FVec F S50000x128 .f32) : FVec F S50000x128 .f32 :=
  Host.scatterAdd scatter_S50000x128_S550000x1_S550000x128_1_0_0_1
    (broadcastInDim S50000x128 ![] bcast_S_S50000x128 (constant S_ .f32 0x00000000#32))
    (broadcastInDim S550000x1 ![0] bcast_S550000_S550000x1_0 dst)
    (mulf (broadcastInDim S550000x128 ![0, 1] bcast_S550000x1_S550000x128_0_1 (broadcastInDim S550000x1 ![0] bcast_S550000_S550000x1_0 norm))
      (Host.gather gather_S50000x128_S550000x1_S550000x128_1_0_n_n_0_1_1128 h (wrapCol src)))

/-! ## The dense stages -/

/-- A 128-vector laid along every row of a 50000 × 128 array. -/
def rowBias (b : FVec F S128 .f32) : FVec F S50000x128 .f32 :=
  broadcastInDim S50000x128 ![0, 1] bcast_S1x128_S50000x128_0_1 (broadcastInDim S1x128 ![1] bcast_S128_S1x128_1 b)

/-- The linear layer x·W + b. -/
def dense (x : FVec F S50000x128 .f32) (W : FVec F S128x128 .f32) (b : FVec F S128 .f32) : FVec F S50000x128 .f32 :=
  addf (Host.dotGeneral dot_S50000x128_S128x128_S50000x128_1_0_0_1_n_n none x W) (rowBias b)

/-- The rectifier max(a, 0). -/
def relu (a : FVec F S50000x128 .f32) : FVec F S50000x128 .f32 :=
  maximumf a (broadcastInDim S50000x128 ![] bcast_S_S50000x128 (constant S_ .f32 0x00000000#32))

/-- The mean of each row: the row's sum (from zero) divided by 128, as a column. -/
def rowMean (a : FVec F S50000x128 .f32) : FVec F S50000x1 .f32 :=
  Host.divf (broadcastInDim S50000x1 ![0] bcast_S50000_S50000x1_0 (Host.reduceAdd a (constant S_ .f32 0x00000000#32) reducesTo_S50000x128_S50000_d1 h_S_))
    (broadcastInDim S50000x1 ![] bcast_S_S50000x1 (constant S_ .f32 0x43000000#32))

/-- A column laid along every row's 128 entries. -/
def colSpread (v : FVec F S50000x1 .f32) : FVec F S50000x128 .f32 :=
  broadcastInDim S50000x128 ![0, 1] bcast_S50000x1_S50000x128_0_1 v

/-- Each entry less its row's mean. -/
def centered (a : FVec F S50000x128 .f32) : FVec F S50000x128 .f32 := subf a (colSpread (rowMean a))

/-- The row normalisation with scale γ and shift β. -/
def lnorm (a : FVec F S50000x128 .f32) (g b : FVec F S128 .f32) : FVec F S50000x128 .f32 :=
  addf (mulf (mulf (centered a) (colSpread (Host.rsqrt (addf (rowMean (mulf (centered a) (centered a)))
    (broadcastInDim S50000x1 ![] bcast_S_S50000x1 (constant S_ .f32 0x3727C5AC#32)))))) (rowBias g)) (rowBias b)

/-- The whole encoder as a function of the eight arguments. -/
def encoder (x : FVec F S50000x128 .f32) (e : IVec S2x500000 32) (W1 : FVec F S128x128 .f32) (b1 : FVec F S128 .f32)
    (W2 : FVec F S128x128 .f32) (b2 g b : FVec F S128 .f32) : FVec F S50000x128 .f32 :=
  lnorm (aggregate (normOf e) (srcOf e) (dstOf e)
    (dense (relu (aggregate (normOf e) (srcOf e) (dstOf e) (dense x W1 b1))) W2 b2)) g b

/-! ## The dense stages read at an index, at the extended reals -/

/-- The normalisation of one row r of 128 numbers at its entry q, with scale gq and shift bq. -/
def lnRow (r : Fin 128 → EReal) (gq bq : EReal) (q : Fin 128) : EReal :=
  (r q - Ideal.div (∑ k : Fin 128, r k) (Ideal.ofBits .f32 0x43000000#32))
    * Ideal.rsqrt (Ideal.div (∑ k : Fin 128, (r k - Ideal.div (∑ k : Fin 128, r k) (Ideal.ofBits .f32 0x43000000#32))
        * (r k - Ideal.div (∑ k : Fin 128, r k) (Ideal.ofBits .f32 0x43000000#32))) (Ideal.ofBits .f32 0x43000000#32)
      + Ideal.ofBits .f32 0x3727C5AC#32) * gq + bq

theorem rowBias_apply (b : FVec Ideal S128 .f32) (p : Fin 50000) (q : Fin 128) : rowBias b (ix2 p q) = b (ix1 q) :=
  Cert.LibPlainDot.rowBroadcastInDim_apply b bcast_S128_S1x128_1 bcast_S1x128_S50000x128_0_1 p q

theorem dense_apply (x : FVec Ideal S50000x128 .f32) (W : FVec Ideal S128x128 .f32) (b : FVec Ideal S128 .f32) (p : Fin 50000) (q : Fin 128) :
    dense x W b (ix2 p q) = (∑ k : Fin 128, x (ix2 p k) * W (ix2 k q)) + b (ix1 q) := by
  unfold dense
  rw [addf_apply, rowBias_apply]
  exact congrArg (· + b (ix1 q)) (Cert.LibPlainDot.dotGeneral_plain (M := 50000) (K := 128) (N := 128) none _ x W (ix2 p q))

theorem relu_apply (a : FVec Ideal S50000x128 .f32) (i : S50000x128.Idx) : relu a i = max (a i) (Ideal.ofBits .f32 0x00000000#32) := rfl

end Cert.ReferenceIdeal.Forms

end
-- ==== Proof.Region0.lean ====
/-
  The first region's output array.

  The region runs the linear kernel at ten grid points. Point t reads rows 5000·t … 5000·t + 4999 of the input, the whole
  weight matrix and the whole bias vector, and writes the same rows of the output. What the kernel stores is the matrix
  product of the rounded operands into a zero accumulator, plus the bias laid along the rows; at the extended reals the
  rounding is the identity and the product is the finite sum over the 128 features, so entry (r, q) of the output is
  Σ_k x(r, k)·W(k, q) + b(q) whichever block holds row r. The ten blocks tile the 50000 rows, so the array ends at
  x·W + b.
-/
import proofs.«126946_j29618094473824_1_alg».proof.Proof.Gen.KernelIdeal.Frame
import proofs.«126946_j29618094473824_1_alg».proof.Proof.HostForms

set_option maxRecDepth 16384

noncomputable section

namespace Cert.KernelIdeal.Region0

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the kernel stores, at (p, q): Σ_k x(p, k)·W(k, q) + b(q) over the block's own rows. -/
theorem pay_apply (x0 : Vec Ideal S5000x128 .f32) (x1 : Vec Ideal S128x128 .f32) (x2 : Vec Ideal S128 .f32) (p : Fin 5000) (q : Fin 128) :
    k0_pay1 x0 x1 x2 (ix2 p q) = (∑ k : Fin 128, x0 (ix2 p k) * x1 (ix2 k q)) + x2 (ix1 q) := by
  unfold k0_pay1
  show FloatOps.matmul (F := Ideal) dot_S5000x128_S128x128_S5000x128_1_0_0_1_n_n none (truncf .bf16 x0 bitsLt_bf16_f32) (truncf .bf16 x1 bitsLt_bf16_f32) (constant S5000x128 .f32 0x00000000#32) (ix2 p q)
      + broadcastTo S5000x128 (shapeCast S1x128 x2 shapeCasts_S128_S1x128) broadcasts_S1x128_S5000x128 (ix2 p q) = _
  rw [Cert.LibPlainDot.rowBroadcastTo_apply x2 shapeCasts_S128_S1x128 broadcasts_S1x128_S5000x128 p q]
  exact congrArg (· + x2 (ix1 q)) (Cert.LibPlainDot.matmul_plain_zero (M := 5000) (K := 128) (N := 128) none
    (truncf .bf16 x0 bitsLt_bf16_f32) (truncf .bf16 x1 bitsLt_bf16_f32) (ix2 p q))

/-- The printed index maps over the grid: the row windows sit at block t, the weight and bias windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Every block of rows is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- Row p of block t is row 5000·t + p of the array. -/
def rowOf (t : Fin cfg0.N) (p : Fin 5000) : Fin 50000 :=
  ⟨t.val * 5000 + p.val, by have ht : t.val < 10 := t.isLt; have hp := p.isLt; omega⟩

/-- The input block at point t holds the array's rows 5000·t …. -/
theorem read0 (c : Dev nD) (t : Fin cfg0.N) (p : Fin 5000) (k : Fin 128) :
    iblk0 V c 0 t (ix2 p k) = V c main_arg0 (ix2 (rowOf t p) k) := by
  obtain ⟨e0, e1, -⟩ := idx_facts t
  show V c main_arg0 (((cfg0.win 0).blk t).view.emb (ix2 p k)) = _
  refine congrArg (V c main_arg0) ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block is the whole weight matrix. -/
theorem read1 (c : Dev nD) (t : Fin cfg0.N) (k q : Fin 128) :
    iblk0 V c 1 t (ix2 k q) = V c main_arg2 (ix2 k q) := by
  obtain ⟨-, -, e2, e3, -⟩ := idx_facts t
  show V c main_arg2 (((cfg0.win 1).blk t).view.emb (ix2 k q)) = _
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias block is the whole bias vector. -/
theorem read2 (c : Dev nD) (t : Fin cfg0.N) (q : Fin 128) :
    iblk0 V c 2 t (ix1 q) = V c main_arg3 (ix1 q) := by
  obtain ⟨-, -, -, -, e4, -⟩ := idx_facts t
  show V c main_arg3 (((cfg0.win 2).blk t).view.emb (ix1 q)) = _
  refine congrArg (V c main_arg3) ?_
  funext a; apply Fin.ext
  match a with
  | ⟨0, _⟩ => show win0_2.index t (0 : Fin 1) * 128 + 1 * q.val = q.val; omega

/-- Entry (p, q) of the output block at point t is entry (5000·t + p, q) of the array. -/
theorem out_emb (t : Fin cfg0.N) (p : Fin 5000) (q : Fin 128) :
    ((cfg0.win 3).blk t).view.emb (ix2 p q) = ix2 (rowOf t p) q := by
  obtain ⟨-, -, -, -, -, e5, e6⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point t writes back is block t of x·W + b of the arrays the region finds. -/
theorem flushed_eq (c : Dev nD) (t : Fin cfg0.N) :
    (dat0 V c).flushed 3 t = ((cfg0.win 3).blk t).view.read (Elt Ideal)
      (Cert.ReferenceIdeal.Forms.dense (F := Ideal) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Cert.ReferenceIdeal.Forms.dense (F := Ideal) (V c main_arg0) (V c main_arg2) (V c main_arg3) (((cfg0.win 3).blk t).view.emb (ix2 p q))
  refine (pay_apply (iblk0 V c 0 t) (iblk0 V c 1 t) (iblk0 V c 2 t) p q).trans ?_
  rw [out_emb t p q, Cert.ReferenceIdeal.Forms.dense_apply, read2 V c t q]
  refine congrArg (· + V c main_arg3 (ix1 q)) ?_
  exact Finset.sum_congr rfl fun k _ => by rw [read0 V c t p k, read1 V c t k q]

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v30).slice (win0_3.rect t)).set ↔ _
  rw [View.set_slice_whole, Rect.mem_set_unit]
  exact Iff.rfl

/-- Every index of the array is in the block of the point that holds its row: row r is in block r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: x·W + b of the arrays the region finds. -/
theorem final (c : Dev nD) :
    (dat0 V c).arrAt 3 cfg0.N = Cert.ReferenceIdeal.Forms.dense (F := Ideal) (V c main_arg0) (V c main_arg2) (V c main_arg3) :=
  (dat0 V c).arrAt_eq_of_cover 3 _ (fun t _ => flushed_eq V c t) cover

end Cert.KernelIdeal.Region0

end
-- ==== Proof.Region1.lean ====
/-
  The second region's output array.

  The region runs the rectified linear kernel at ten grid points. Point t reads rows 5000·t … 5000·t + 4999 of its input
  (the first message-passing result), the whole second weight matrix and bias, and writes the same rows of the output.
  What the kernel stores is the matrix product of max(a, 0), rounded, with the rounded weights into a zero accumulator,
  plus the bias laid along the rows; at the extended reals the rounding is the identity and the product is the finite sum
  over the 128 features, so entry (r, q) of the output is Σ_k max(a(r, k), 0)·W(k, q) + b(q) whichever block holds row r.
  The ten blocks tile the 50000 rows, so the array ends at max(a, 0)·W + b.
-/
import proofs.«126946_j29618094473824_1_alg».proof.Proof.Gen.KernelIdeal.Frame
import proofs.«126946_j29618094473824_1_alg».proof.Proof.HostForms

set_option maxRecDepth 16384

noncomputable section

namespace Cert.KernelIdeal.Region1

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the kernel stores, at (p, q): Σ_k max(a(p, k), 0)·W(k, q) + b(q) over the block's own rows. -/
theorem pay_apply (x0 : Vec Ideal S5000x128 .f32) (x1 : Vec Ideal S128x128 .f32) (x2 : Vec Ideal S128 .f32) (p : Fin 5000) (q : Fin 128) :
    k1_pay1 x0 x1 x2 (ix2 p q)
      = (∑ k : Fin 128, max (x0 (ix2 p k)) (Ideal.ofBits .f32 0x00000000#32) * x1 (ix2 k q)) + x2 (ix1 q) := by
  unfold k1_pay1
  show FloatOps.matmul (F := Ideal) dot_S5000x128_S128x128_S5000x128_1_0_0_1_n_n none
        (truncf .bf16 (maximumf (shapeCast S5000x128 x0 shapeCasts_S5000x128_S5000x128) (broadcast S5000x128 (Scalar.ofBits .f32 0x00000000#32))) bitsLt_bf16_f32)
        (truncf .bf16 x1 bitsLt_bf16_f32) (constant S5000x128 .f32 0x00000000#32) (ix2 p q)
      + broadcastTo S5000x128 (shapeCast S1x128 x2 shapeCasts_S128_S1x128) broadcasts_S1x128_S5000x128 (ix2 p q) = _
  rw [Cert.LibPlainDot.rowBroadcastTo_apply x2 shapeCasts_S128_S1x128 broadcasts_S1x128_S5000x128 p q, shapeCast_self]
  exact congrArg (· + x2 (ix1 q)) (Cert.LibPlainDot.matmul_plain_zero (M := 5000) (K := 128) (N := 128) none
    (truncf .bf16 (maximumf x0 (broadcast S5000x128 (Scalar.ofBits .f32 0x00000000#32))) bitsLt_bf16_f32) (truncf .bf16 x1 bitsLt_bf16_f32) (ix2 p q))

/-- The printed index maps over the grid: the row windows sit at block t, the weight and bias windows at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Every block of rows is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- Row p of block t is row 5000·t + p of the array. -/
def rowOf (t : Fin cfg1.N) (p : Fin 5000) : Fin 50000 :=
  ⟨t.val * 5000 + p.val, by have ht : t.val < 10 := t.isLt; have hp := p.isLt; omega⟩

/-- The input block at point t holds rows 5000·t … of the region's input array. -/
theorem read0 (c : Dev nD) (t : Fin cfg1.N) (p : Fin 5000) (k : Fin 128) :
    iblk1 V c 0 t (ix2 p k) = V c main_v43 (ix2 (rowOf t p) k) := by
  obtain ⟨e0, e1, -⟩ := idx_facts t
  show V c main_v43 (((cfg1.win 0).blk t).view.emb (ix2 p k)) = _
  refine congrArg (V c main_v43) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The weight block is the whole second weight matrix. -/
theorem read1 (c : Dev nD) (t : Fin cfg1.N) (k q : Fin 128) :
    iblk1 V c 1 t (ix2 k q) = V c main_arg4 (ix2 k q) := by
  obtain ⟨-, -, e2, e3, -⟩ := idx_facts t
  show V c main_arg4 (((cfg1.win 1).blk t).view.emb (ix2 k q)) = _
  refine congrArg (V c main_arg4) ?_
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- The bias block is the whole second bias vector. -/
theorem read2 (c : Dev nD) (t : Fin cfg1.N) (q : Fin 128) :
    iblk1 V c 2 t (ix1 q) = V c main_arg5 (ix1 q) := by
  obtain ⟨-, -, -, -, e4, -⟩ := idx_facts t
  show V c main_arg5 (((cfg1.win 2).blk t).view.emb (ix1 q)) = _
  refine congrArg (V c main_arg5) ?_
  funext a; apply Fin.ext
  match a with
  | ⟨0, _⟩ => show win1_2.index t (0 : Fin 1) * 128 + 1 * q.val = q.val; omega

/-- Entry (p, q) of the output block at point t is entry (5000·t + p, q) of the array. -/
theorem out_emb (t : Fin cfg1.N) (p : Fin 5000) (q : Fin 128) :
    ((cfg1.win 3).blk t).view.emb (ix2 p q) = ix2 (rowOf t p) q := by
  obtain ⟨-, -, -, -, -, e5, e6⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- What point t writes back is block t of max(a, 0)·W + b of the arrays the region finds. -/
theorem flushed_eq (c : Dev nD) (t : Fin cfg1.N) :
    (dat1 V c).flushed 3 t = ((cfg1.win 3).blk t).view.read (Elt Ideal)
      (Cert.ReferenceIdeal.Forms.dense (F := Ideal) (Cert.ReferenceIdeal.Forms.relu (V c main_v43)) (V c main_arg4) (V c main_arg5)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = Cert.ReferenceIdeal.Forms.dense (F := Ideal) (Cert.ReferenceIdeal.Forms.relu (V c main_v43)) (V c main_arg4) (V c main_arg5) (((cfg1.win 3).blk t).view.emb (ix2 p q))
  refine (pay_apply (iblk1 V c 0 t) (iblk1 V c 1 t) (iblk1 V c 2 t) p q).trans ?_
  rw [out_emb t p q, Cert.ReferenceIdeal.Forms.dense_apply, read2 V c t q]
  refine congrArg (· + V c main_arg5 (ix1 q)) ?_
  exact Finset.sum_congr rfl fun k _ => by rw [read0 V c t p k, read1 V c t k q, Cert.ReferenceIdeal.Forms.relu_apply]

/-- An index of the array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v44).slice (win1_3.rect t)).set ↔ _
  rw [View.set_slice_whole, Rect.mem_set_unit]
  exact Iff.rfl

/-- Every index of the array is in the block of the point that holds its row: row r is in block r / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region: max(a, 0)·W + b of the arrays the region finds. -/
theorem final (c : Dev nD) :
    (dat1 V c).arrAt 3 cfg1.N = Cert.ReferenceIdeal.Forms.dense (F := Ideal) (Cert.ReferenceIdeal.Forms.relu (V c main_v43)) (V c main_arg4) (V c main_arg5) :=
  (dat1 V c).arrAt_eq_of_cover 3 _ (fun t _ => flushed_eq V c t) cover

end Cert.KernelIdeal.Region1

end
-- ==== Proof.LayerNormRead.lean ====
/-
  The row normalisation read at an index.

  The host sums a row from zero and divides by 128: at the extended reals the sum from zero is the finite sum of the
  row's 128 entries, so the mean of row p is (Σ_k a(p, k)) / 128, a column spread along the row reads the column at
  the row, and the normalised entry (p, q) is the function `lnRow` of row p, of γ(q) and of β(q).
-/
import proofs.«126946_j29618094473824_1_alg».proof.Proof.HostForms
import Idealize.ShloMosaic.Lib.IdealHost

noncomputable section

namespace Cert.ReferenceIdeal.Forms

open Idealize.ShloMosaic Idealize.ShloMosaic.ValueIdx Cert.ReferenceIdeal Cert.ReferenceIdeal.Gen

/-- A column spread along the rows reads the column at the row. -/
theorem colSpread_apply (v : FVec Ideal S50000x1 .f32) (p : Fin 50000) (q : Fin 128) :
    colSpread v (ix2 p q) = v (ix2 p (0 : Fin 1)) := by
  unfold colSpread
  exact broadcastInDim_apply ![0, 1] bcast_S50000x1_S50000x128_0_1 v (ix2 p q) (ix2 p (0 : Fin 1)) (fun a => by
    match a with
    | ⟨0, _⟩ => show p.val = if (50000 : Nat) = 1 then 0 else p.val; rw [if_neg (by decide)]
    | ⟨1, _⟩ => show (0 : Nat) = if (1 : Nat) = 1 then 0 else q.val; rw [if_pos rfl])

/-- The mean of row p: the sum of its 128 entries divided by 128. -/
theorem rowMean_apply (a : FVec Ideal S50000x128 .f32) (p : Fin 50000) :
    rowMean a (ix2 p (0 : Fin 1)) = Ideal.div (∑ k : Fin 128, a (ix2 p k)) (Ideal.ofBits .f32 0x43000000#32) := by
  unfold rowMean
  show Ideal.div (broadcastInDim S50000x1 ![0] bcast_S50000_S50000x1_0
      (Host.reduceAdd a (constant S_ .f32 0x00000000#32) reducesTo_S50000x128_S50000_d1 h_S_) (ix2 p (0 : Fin 1)))
    (Ideal.ofBits .f32 0x43000000#32) = _
  rw [broadcastInDim_apply ![0] bcast_S50000_S50000x1_0 _ (ix2 p (0 : Fin 1)) (ix1 p) (fun a => by
    match a with
    | ⟨0, _⟩ => show p.val = if (50000 : Nat) = 1 then 0 else p.val; rw [if_neg (by decide)])]
  show Ideal.div (Ideal.hostReduceAdd reducesTo_S50000x128_S50000_d1 a (Ideal.ofBits .f32 0x00000000#32) (ix1 p)) _ = _
  rw [Ideal.hostReduceAdd_single reducesTo_S50000x128_S50000_d1 (by decide : S50000x128.Reduces [1] S50000), Ideal.ofBits_zero_f32, zero_add]
  refine congrArg (Ideal.div · _) (Finset.sum_congr rfl fun k _ => congrArg a ?_)
  funext d; apply Fin.ext
  match d with
  | ⟨0, _⟩ => rfl
  | ⟨1, _⟩ => rfl

/-- An entry less its row's mean. -/
theorem centered_apply (a : FVec Ideal S50000x128 .f32) (p : Fin 50000) (k : Fin 128) :
    centered a (ix2 p k) = a (ix2 p k) - Ideal.div (∑ k : Fin 128, a (ix2 p k)) (Ideal.ofBits .f32 0x43000000#32) := by
  unfold centered
  rw [subf_apply, colSpread_apply, rowMean_apply]

/-- The normalised entry (p, q) is `lnRow` of row p. -/
theorem lnorm_apply (a : FVec Ideal S50000x128 .f32) (g b : FVec Ideal S128 .f32) (p : Fin 50000) (q : Fin 128) :
    lnorm a g b (ix2 p q) = lnRow (fun k => a (ix2 p k)) (g (ix1 q)) (b (ix1 q)) q := by
  unfold lnorm lnRow
  rw [addf_apply, mulf_apply, mulf_apply, rowBias_apply, rowBias_apply, centered_apply, colSpread_apply]
  show _ * Ideal.rsqrt (rowMean (mulf (centered a) (centered a)) (ix2 p (0 : Fin 1)) + Ideal.ofBits .f32 0x3727C5AC#32) * _ + _ = _
  rw [rowMean_apply]
  simp only [mulf_apply, centered_apply]

end Cert.ReferenceIdeal.Forms

end
-- ==== Proof.Region2.lean ====
/-
  The third region's output array.

  The region runs the normalisation kernel at ten grid points. Point t reads rows 5000·t … 5000·t + 4999 of its input
  (the second message-passing result), the whole scale and shift vectors, and writes the same rows of the output. The
  kernel normalises each row of its block by itself: the row's sum over the 128 lanes divided by 128 is its mean μ, the
  sum of the squared deviations divided by 128 its variance σ², and the entry (p, q) becomes
  (a(p, q) − μ)·(σ² + ε)^(−1/2)·γ(q) + β(q). A lane sum carries the neutral accumulator zero, which the extended reals'
  reading drops, so the row's sums are the finite sums of its 128 entries, and a normalised entry depends on its own row
  only: whichever block holds row r, the output's row r is the normalisation of the input's row r. The ten blocks tile the
  50000 rows, so the array ends at the row normalisation of the input.
-/
import proofs.«126946_j29618094473824_1_alg».proof.Proof.Gen.KernelIdeal.Frame
import proofs.«126946_j29618094473824_1_alg».proof.Proof.HostForms
import proofs.«126946_j29618094473824_1_alg».proof.Proof.LayerNormRead

set_option maxRecDepth 16384

noncomputable section

namespace Cert.KernelIdeal.Region2

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The kernel's row statistics -/

/-- The mean of each row of a block: the lane sum divided by 128, as a column. -/
def kMeanCol (y : FVec Ideal S5000x128 .f32) : FVec Ideal S5000x1 .f32 :=
  divf (shapeCast S5000x1 (multiReduction .add [1] S5000 y 0x00000000#32 reduces_S5000x128_S5000 (.inl rfl) rfl) shapeCasts_S5000_S5000x1)
    (broadcast S5000x1 (Scalar.ofBits .f32 0x43000000#32))

/-- Each entry of a block less its row's mean. -/
def kCentered (y : FVec Ideal S5000x128 .f32) : FVec Ideal S5000x128 .f32 :=
  subf y (broadcastTo S5000x128 (kMeanCol y) broadcasts_S5000x1_S5000x128)

/-- A column broadcast along the lanes reads the column at the row. -/
theorem spread_apply (v : FVec Ideal S5000x1 .f32) (p : Fin 5000) (q : Fin 128) :
    broadcastTo S5000x128 v broadcasts_S5000x1_S5000x128 (ix2 p q) = v (ix2 p (0 : Fin 1)) :=
  broadcastTo_apply v broadcasts_S5000x1_S5000x128 (ix2 p q) (ix2 p (0 : Fin 1)) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- The mean of row p of a block: the sum of its 128 entries divided by 128. -/
theorem kMeanCol_apply (y : FVec Ideal S5000x128 .f32) (p : Fin 5000) :
    kMeanCol y (ix2 p (0 : Fin 1)) = Ideal.div (∑ k : Fin 128, y (ix2 p k)) (Ideal.ofBits .f32 0x43000000#32) := by
  unfold kMeanCol
  show Ideal.div (shapeCast S5000x1 (multiReduction .add [1] S5000 y 0x00000000#32 reduces_S5000x128_S5000 (.inl rfl) rfl) shapeCasts_S5000_S5000x1 (ix2 p (0 : Fin 1)))
    (Ideal.ofBits .f32 0x43000000#32) = _
  rw [shapeCast_apply _ shapeCasts_S5000_S5000x1 (ix2 p (0 : Fin 1)) (ix1 p) (by
    rw [Shape.rowMajor_val_one, Shape.rowMajor_val_two]; show p.val = p.val * 1 + 0; omega)]
  refine congrArg (Ideal.div · _) ((Ideal.multiReduction_add_single y 0x00000000#32 reduces_S5000x128_S5000 (.inl rfl) rfl (ix1 p)).trans ?_)
  refine Finset.sum_congr rfl fun k _ => congrArg y ?_
  funext d; apply Fin.ext
  match d with
  | ⟨0, _⟩ => rfl
  | ⟨1, _⟩ => rfl

theorem kCentered_apply (y : FVec Ideal S5000x128 .f32) (p : Fin 5000) (k : Fin 128) :
    kCentered y (ix2 p k) = y (ix2 p k) - Ideal.div (∑ k : Fin 128, y (ix2 p k)) (Ideal.ofBits .f32 0x43000000#32) := by
  unfold kCentered
  rw [subf_apply, spread_apply, kMeanCol_apply]

/-- What the kernel stores, as one expression of its block: the centred block times the spread inverse deviation, scaled and shifted. -/
theorem pay_eq (x : Vec Ideal S5000x128 .f32) (g b : Vec Ideal S128 .f32) :
    k2_pay1 x g b = addf (mulf (mulf (kCentered x) (broadcastTo S5000x128 (rsqrt (addf (kMeanCol (mulf (kCentered x) (kCentered x)))
        (broadcast S5000x1 (Scalar.ofBits .f32 0x3727C5AC#32)))) broadcasts_S5000x1_S5000x128))
      (broadcastTo S5000x128 (shapeCast S1x128 g shapeCasts_S128_S1x128) broadcasts_S1x128_S5000x128))
      (broadcastTo S5000x128 (shapeCast S1x128 b shapeCasts_S128_S1x128) broadcasts_S1x128_S5000x128) := by
  have hx : shapeCast S5000x128 x shapeCasts_S5000x128_S5000x128 = x := shapeCast_self x _
  unfold k2_pay1 kCentered kMeanCol
  dsimp only
  rw [hx]

/-- What the kernel stores, at (p, q): the normalisation of the block's row p at its entry q. -/
theorem pay_apply (x : Vec Ideal S5000x128 .f32) (g b : Vec Ideal S128 .f32) (p : Fin 5000) (q : Fin 128) :
    k2_pay1 x g b (ix2 p q) = Cert.ReferenceIdeal.Forms.lnRow (fun k => x (ix2 p k)) (g (ix1 q)) (b (ix1 q)) q := by
  rw [pay_eq, addf_apply, mulf_apply, mulf_apply, Cert.LibPlainDot.rowBroadcastTo_apply g shapeCasts_S128_S1x128 broadcasts_S1x128_S5000x128 p q,
    Cert.LibPlainDot.rowBroadcastTo_apply b shapeCasts_S128_S1x128 broadcasts_S1x128_S5000x128 p q, kCentered_apply, spread_apply]
  show _ * Ideal.rsqrt (kMeanCol (mulf (kCentered x) (kCentered x)) (ix2 p (0 : Fin 1)) + Ideal.ofBits .f32 0x3727C5AC#32) * _ + _ = _
  rw [kMeanCol_apply]
  simp only [mulf_apply, kCentered_apply]
  rfl

/-! ## The blocks -/

/-- The printed index maps over the grid: the row windows sit at block t, the scale and shift windows at block 0. -/
theorem idx_facts : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 2) = t.val ∧ win2_3.index t (1 : Fin 2) = 0 :=
  (by decide +kernel : ∀ t : Fin grid2.N, _)

/-- Every block of rows is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- Row p of block t is row 5000·t + p of the array. -/
def rowOf (t : Fin cfg2.N) (p : Fin 5000) : Fin 50000 :=
  ⟨t.val * 5000 + p.val, by have ht : t.val < 10 := t.isLt; have hp := p.isLt; omega⟩

/-- The input block at point t holds rows 5000·t … of the region's input array. -/
theorem read0 (c : Dev nD) (t : Fin cfg2.N) (p : Fin 5000) (k : Fin 128) :
    iblk2 V c 0 t (ix2 p k) = V c main_v57 (ix2 (rowOf t p) k) := by
  obtain ⟨e0, e1, -⟩ := idx_facts t
  show V c main_v57 (((cfg2.win 0).blk t).view.emb (ix2 p k)) = _
  refine congrArg (V c main_v57) ?_
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- The scale block is the whole scale vector. -/
theorem read1 (c : Dev nD) (t : Fin cfg2.N) (q : Fin 128) :
    iblk2 V c 1 t (ix1 q) = V c main_arg6 (ix1 q) := by
  obtain ⟨-, -, e2, -⟩ := idx_facts t
  show V c main_arg6 (((cfg2.win 1).blk t).view.emb (ix1 q)) = _
  refine congrArg (V c main_arg6) ?_
  funext a; apply Fin.ext
  match a with
  | ⟨0, _⟩ => show win2_1.index t (0 : Fin 1) * 128 + 1 * q.val = q.val; omega

/-- The shift block is the whole shift vector. -/
theorem read2 (c : Dev nD) (t : Fin cfg2.N) (q : Fin 128) :
    iblk2 V c 2 t (ix1 q) = V c main_arg7 (ix1 q) := by
  obtain ⟨-, -, -, e3, -⟩ := idx_facts t
  show V c main_arg7 (((cfg2.win 2).blk t).view.emb (ix1 q)) = _
  refine congrArg (V c main_arg7) ?_
  funext a; apply Fin.ext
  match a with
  | ⟨0, _⟩ => show win2_2.index t (0 : Fin 1) * 128 + 1 * q.val = q.val; omega

/-- Entry (p, q) of the output block at point t is entry (5000·t + p, q) of the array. -/
theorem out_emb (t : Fin cfg2.N) (p : Fin 5000) (q : Fin 128) :
    ((cfg2.win 3).blk t).view.emb (ix2 p q) = ix2 (rowOf t p) q := by
  obtain ⟨-, -, -, -, e5, e6⟩ := idx_facts t
  funext a; apply Fin.ext
  match a with
  | ⟨0, _⟩ => show win2_3.index t (0 : Fin 2) * 5000 + 1 * p.val = t.val * 5000 + p.val; omega
  | ⟨1, _⟩ => show win2_3.index t (1 : Fin 2) * 128 + 1 * q.val = q.val; omega

/-- What point t writes back is block t of the row normalisation of the arrays the region finds. -/
theorem flushed_eq (c : Dev nD) (t : Fin cfg2.N) :
    (dat2 V c).flushed 3 t = ((cfg2.win 3).blk t).view.read (Elt Ideal)
      (Cert.ReferenceIdeal.Forms.lnorm (F := Ideal) (V c main_v57) (V c main_arg6) (V c main_arg7)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128) hz1]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = Cert.ReferenceIdeal.Forms.lnorm (F := Ideal) (V c main_v57) (V c main_arg6) (V c main_arg7) (((cfg2.win 3).blk t).view.emb (ix2 p q))
  refine (pay_apply (iblk2 V c 0 t) (iblk2 V c 1 t) (iblk2 V c 2 t) p q).trans ?_
  rw [out_emb t p q, Cert.ReferenceIdeal.Forms.lnorm_apply, read1 V c t q, read2 V c t q]
  exact congrArg (fun r => Cert.ReferenceIdeal.Forms.lnRow r (V c main_arg6 (ix1 q)) (V c main_arg7 (ix1 q)) q) (funext fun k => read0 V c t p k)

/-- An index of the array is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v58).slice (win2_3.rect t)).set ↔ _
  rw [View.set_slice_whole, Rect.mem_set_unit]
  exact Iff.rfl

/-- Every index of the array is in the block of the point that holds its row: row r is in block r / 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region: the row normalisation of the arrays the region finds. -/
theorem final (c : Dev nD) :
    (dat2 V c).arrAt 3 cfg2.N = Cert.ReferenceIdeal.Forms.lnorm (F := Ideal) (V c main_v57) (V c main_arg6) (V c main_arg7) :=
  (dat2 V c).arrAt_eq_of_cover 3 _ (fun t _ => flushed_eq V c t) cover

end Cert.KernelIdeal.Region2

end
-- ==== Proof.KernelValue.lean ====
/-
  The kernel program's result as a function of its arguments.

  The program is eight stretches: host operations building the graph part from the edge list, the linear region, a
  message-passing stretch, the rectified linear region, a second message-passing stretch, the normalisation region.
  Reading the memory at each boundary: a host stretch leaves each buffer it writes at its operations' value of the
  buffers before it and every other buffer alone; a region leaves its output array at what its write-backs hold and every
  other buffer alone. The graph part's three arrays (sources, targets, edge factors) are written before the first region
  and never again, so both message-passing stretches read the same three; each region's inputs are the arguments, or the
  stretch before it. Composed, the result is the encoder of the eight arguments.
-/
import proofs.«126946_j29618094473824_1_alg».proof.Proof.Gen.KernelIdeal.Frame
import proofs.«126946_j29618094473824_1_alg».proof.Proof.HostForms
import proofs.«126946_j29618094473824_1_alg».proof.Proof.Region0
import proofs.«126946_j29618094473824_1_alg».proof.Proof.Region1
import proofs.«126946_j29618094473824_1_alg».proof.Proof.Region2

set_option maxRecDepth 16384

noncomputable section

namespace Cert.KernelIdeal.Composed

open Idealize.ShloMosaic Idealize.ShloMosaic.TcCoe Idealize.SL.Sem Idealize.ShloMosaic.StableHlo
open Cert.KernelIdeal Cert.KernelIdeal.Gen
open Cert.ReferenceIdeal.Forms (srcOf dstOf normOf aggregate dense relu lnorm encoder)

section Host

variable {F : FTy → Type} [FloatOps F]
variable (m : (ℓ : Loc nD τ sig) → Buf (Elt F) ℓ) (ρ : Dev nD → PrngReg)

/-! ## What the first region finds: the graph part built, the arguments as launched -/

/-- The sources with the self loops appended. -/
theorem src_entry (c : Dev nD) : W3 m ρ c (Proc.devRef .tc main_v5) = srcOf (m ((c : Thread nD τ).loc main_arg1)) := by
  show StableHlo.after hostOps0_2 (StableHlo.after hostOps0_1 (StableHlo.after hostOps0 (W0 m ρ c))) (Proc.devRef .tc main_v5) = _
  simp only [hostOps0, hostOps0_1, hostOps0_2]
  after_results
  rfl
/-- The targets with the self loops appended. -/
theorem dst_entry (c : Dev nD) : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results
  rfl
set_option maxHeartbeats 4000000 in
/-- The edge factors. -/
theorem norm_entry (c : Dev nD) : W3 m ρ c (Proc.devRef .tc main_v29) = normOf (F := F) (m ((c : Thread nD τ).loc main_arg1)) := by
  show StableHlo.after hostOps0_2 (StableHlo.after hostOps0_1 (StableHlo.after hostOps0 (W0 m ρ c))) (Proc.devRef .tc main_v29) = _
  simp only [hostOps0, hostOps0_1, hostOps0_2]
  after_results
  rfl
/-- No host operation before the first region writes argument 0. -/
theorem arg0_entry (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results
/-- No host operation before the first region writes argument 2. -/
theorem arg2_entry (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results
/-- No host operation before the first region writes argument 3. -/
theorem arg3_entry (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results
/-- No host operation before the first region writes argument 4. -/
theorem arg4_entry (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results
/-- No host operation before the first region writes argument 5. -/
theorem arg5_entry (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results
/-- No host operation before the first region writes argument 6. -/
theorem arg6_entry (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0, hostOps0_1, hostOps0_2]
  after_results
/-- No host operation before the first region writes argument 7. -/
theorem arg7_entry (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  simp only [hostOps0, hostOps0_1, hostOps0_2]
  after_results

/-! ## Across the first region and the first message-passing stretch -/

/-- The first region's output array at its exit is what its write-backs leave. -/
theorem out0_exit (c : Dev nD) : W4 m ρ c (Proc.devRef .tc main_v30) = (dat0 (V3 m ρ) c).arrAt 3 cfg0.N := W4_arr m ρ c 3

theorem r0_keep_main_v5 (c : Dev nD) : W4 m ρ c (Proc.devRef .tc main_v5) = W3 m ρ c (Proc.devRef .tc main_v5) := W4_of_ne m ρ c main_v5 (by decide)
theorem r0_keep_main_v6 (c : Dev nD) : W4 m ρ c (Proc.devRef .tc main_v6) = W3 m ρ c (Proc.devRef .tc main_v6) := W4_of_ne m ρ c main_v6 (by decide)
theorem r0_keep_main_v29 (c : Dev nD) : W4 m ρ c (Proc.devRef .tc main_v29) = W3 m ρ c (Proc.devRef .tc main_v29) := W4_of_ne m ρ c main_v29 (by decide)
theorem r0_keep_main_arg4 (c : Dev nD) : W4 m ρ c (Proc.devRef .tc main_arg4) = W3 m ρ c (Proc.devRef .tc main_arg4) := W4_of_ne m ρ c main_arg4 (by decide)
theorem r0_keep_main_arg5 (c : Dev nD) : W4 m ρ c (Proc.devRef .tc main_arg5) = W3 m ρ c (Proc.devRef .tc main_arg5) := W4_of_ne m ρ c main_arg5 (by decide)
theorem r0_keep_main_arg6 (c : Dev nD) : W4 m ρ c (Proc.devRef .tc main_arg6) = W3 m ρ c (Proc.devRef .tc main_arg6) := W4_of_ne m ρ c main_arg6 (by decide)
theorem r0_keep_main_arg7 (c : Dev nD) : W4 m ρ c (Proc.devRef .tc main_arg7) = W3 m ρ c (Proc.devRef .tc main_arg7) := W4_of_ne m ρ c main_arg7 (by decide)

set_option maxHeartbeats 2000000 in
/-- The first message-passing stretch: the step applied to the first region's output, with the graph part as it stands. -/
theorem agg1 (c : Dev nD) : W5 m ρ c (Proc.devRef .tc main_v43)
    = aggregate (W4 m ρ c (Proc.devRef .tc main_v29)) (W4 m ρ c (Proc.devRef .tc main_v5)) (W4 m ρ c (Proc.devRef .tc main_v6)) (W4 m ρ c (Proc.devRef .tc main_v30)) := by
  show StableHlo.after hostOps1 (W4 m ρ c) (Proc.devRef .tc main_v43) = _
  simp only [hostOps1]
  after_results_simp
  rfl

theorem h1_keep_main_v5 (c : Dev nD) : W5 m ρ c (Proc.devRef .tc main_v5) = W4 m ρ c (Proc.devRef .tc main_v5) := by
  show StableHlo.after hostOps1 (W4 m ρ c) (Proc.devRef .tc main_v5) = _
  simp only [hostOps1]
  after_results
theorem h1_keep_main_v6 (c : Dev nD) : W5 m ρ c (Proc.devRef .tc main_v6) = W4 m ρ c (Proc.devRef .tc main_v6) := by
  show StableHlo.after hostOps1 (W4 m ρ c) (Proc.devRef .tc main_v6) = _
  simp only [hostOps1]
  after_results
theorem h1_keep_main_v29 (c : Dev nD) : W5 m ρ c (Proc.devRef .tc main_v29) = W4 m ρ c (Proc.devRef .tc main_v29) := by
  show StableHlo.after hostOps1 (W4 m ρ c) (Proc.devRef .tc main_v29) = _
  simp only [hostOps1]
  after_results
theorem h1_keep_main_arg4 (c : Dev nD) : W5 m ρ c (Proc.devRef .tc main_arg4) = W4 m ρ c (Proc.devRef .tc main_arg4) := by
  show StableHlo.after hostOps1 (W4 m ρ c) (Proc.devRef .tc main_arg4) = _
  simp only [hostOps1]
  after_results
theorem h1_keep_main_arg5 (c : Dev nD) : W5 m ρ c (Proc.devRef .tc main_arg5) = W4 m ρ c (Proc.devRef .tc main_arg5) := by
  show StableHlo.after hostOps1 (W4 m ρ c) (Proc.devRef .tc main_arg5) = _
  simp only [hostOps1]
  after_results
theorem h1_keep_main_arg6 (c : Dev nD) : W5 m ρ c (Proc.devRef .tc main_arg6) = W4 m ρ c (Proc.devRef .tc main_arg6) := by
  show StableHlo.after hostOps1 (W4 m ρ c) (Proc.devRef .tc main_arg6) = _
  simp only [hostOps1]
  after_results
theorem h1_keep_main_arg7 (c : Dev nD) : W5 m ρ c (Proc.devRef .tc main_arg7) = W4 m ρ c (Proc.devRef .tc main_arg7) := by
  show StableHlo.after hostOps1 (W4 m ρ c) (Proc.devRef .tc main_arg7) = _
  simp only [hostOps1]
  after_results

/-! ## Across the second region and the second message-passing stretch -/

/-- The second region's output array at its exit is what its write-backs leave. -/
theorem out1_exit (c : Dev nD) : W6 m ρ c (Proc.devRef .tc main_v44) = (dat1 (V5 m ρ) c).arrAt 3 cfg1.N := W6_arr m ρ c 3

theorem r1_keep_main_v5 (c : Dev nD) : W6 m ρ c (Proc.devRef .tc main_v5) = W5 m ρ c (Proc.devRef .tc main_v5) := W6_of_ne m ρ c main_v5 (by decide)
theorem r1_keep_main_v6 (c : Dev nD) : W6 m ρ c (Proc.devRef .tc main_v6) = W5 m ρ c (Proc.devRef .tc main_v6) := W6_of_ne m ρ c main_v6 (by decide)
theorem r1_keep_main_v29 (c : Dev nD) : W6 m ρ c (Proc.devRef .tc main_v29) = W5 m ρ c (Proc.devRef .tc main_v29) := W6_of_ne m ρ c main_v29 (by decide)
theorem r1_keep_main_arg6 (c : Dev nD) : W6 m ρ c (Proc.devRef .tc main_arg6) = W5 m ρ c (Proc.devRef .tc main_arg6) := W6_of_ne m ρ c main_arg6 (by decide)
theorem r1_keep_main_arg7 (c : Dev nD) : W6 m ρ c (Proc.devRef .tc main_arg7) = W5 m ρ c (Proc.devRef .tc main_arg7) := W6_of_ne m ρ c main_arg7 (by decide)

set_option maxHeartbeats 2000000 in
/-- The second message-passing stretch: the step applied to the second region's output, with the graph part as it stands. -/
theorem agg2 (c : Dev nD) : W7 m ρ c (Proc.devRef .tc main_v57)
    = aggregate (W6 m ρ c (Proc.devRef .tc main_v29)) (W6 m ρ c (Proc.devRef .tc main_v5)) (W6 m ρ c (Proc.devRef .tc main_v6)) (W6 m ρ c (Proc.devRef .tc main_v44)) := by
  show StableHlo.after hostOps2 (W6 m ρ c) (Proc.devRef .tc main_v57) = _
  simp only [hostOps2]
  after_results_simp
  rfl

theorem h2_keep_main_arg6 (c : Dev nD) : W7 m ρ c (Proc.devRef .tc main_arg6) = W6 m ρ c (Proc.devRef .tc main_arg6) := by
  show StableHlo.after hostOps2 (W6 m ρ c) (Proc.devRef .tc main_arg6) = _
  simp only [hostOps2]
  after_results
theorem h2_keep_main_arg7 (c : Dev nD) : W7 m ρ c (Proc.devRef .tc main_arg7) = W6 m ρ c (Proc.devRef .tc main_arg7) := by
  show StableHlo.after hostOps2 (W6 m ρ c) (Proc.devRef .tc main_arg7) = _
  simp only [hostOps2]
  after_results

/-- The third region's output array at its exit is what its write-backs leave. -/
theorem out2_exit (c : Dev nD) : W8 m ρ c (Proc.devRef .tc main_v58) = (dat2 (V7 m ρ) c).arrAt 3 cfg2.N := W8_arr m ρ c 3

/-! ## The graph part and the later arguments, as each later stretch or region finds them -/

theorem src_at4 (c : Dev nD) : W4 m ρ c (Proc.devRef .tc main_v5) = srcOf (m ((c : Thread nD τ).loc main_arg1)) := (r0_keep_main_v5 m ρ c).trans (src_entry m ρ c)
theorem dst_at4 (c : Dev nD) : W4 m ρ c (Proc.devRef .tc main_v6) = dstOf (m ((c : Thread nD τ).loc main_arg1)) := (r0_keep_main_v6 m ρ c).trans (dst_entry m ρ c)
theorem norm_at4 (c : Dev nD) : W4 m ρ c (Proc.devRef .tc main_v29) = normOf (F := F) (m ((c : Thread nD τ).loc main_arg1)) := (r0_keep_main_v29 m ρ c).trans (norm_entry m ρ c)
theorem src_at6 (c : Dev nD) : W6 m ρ c (Proc.devRef .tc main_v5) = srcOf (m ((c : Thread nD τ).loc main_arg1)) := (r1_keep_main_v5 m ρ c).trans ((h1_keep_main_v5 m ρ c).trans (src_at4 m ρ c))
theorem dst_at6 (c : Dev nD) : W6 m ρ c (Proc.devRef .tc main_v6) = dstOf (m ((c : Thread nD τ).loc main_arg1)) := (r1_keep_main_v6 m ρ c).trans ((h1_keep_main_v6 m ρ c).trans (dst_at4 m ρ c))
theorem norm_at6 (c : Dev nD) : W6 m ρ c (Proc.devRef .tc main_v29) = normOf (F := F) (m ((c : Thread nD τ).loc main_arg1)) := (r1_keep_main_v29 m ρ c).trans ((h1_keep_main_v29 m ρ c).trans (norm_at4 m ρ c))
theorem arg4_at5 (c : Dev nD) : W5 m ρ c (Proc.devRef .tc main_arg4) = m ((c : Thread nD τ).loc main_arg4) := (h1_keep_main_arg4 m ρ c).trans ((r0_keep_main_arg4 m ρ c).trans (arg4_entry m ρ c))
theorem arg5_at5 (c : Dev nD) : W5 m ρ c (Proc.devRef .tc main_arg5) = m ((c : Thread nD τ).loc main_arg5) := (h1_keep_main_arg5 m ρ c).trans ((r0_keep_main_arg5 m ρ c).trans (arg5_entry m ρ c))
theorem arg6_at7 (c : Dev nD) : W7 m ρ c (Proc.devRef .tc main_arg6) = m ((c : Thread nD τ).loc main_arg6) :=
  (h2_keep_main_arg6 m ρ c).trans ((r1_keep_main_arg6 m ρ c).trans ((h1_keep_main_arg6 m ρ c).trans ((r0_keep_main_arg6 m ρ c).trans (arg6_entry m ρ c))))
theorem arg7_at7 (c : Dev nD) : W7 m ρ c (Proc.devRef .tc main_arg7) = m ((c : Thread nD τ).loc main_arg7) :=
  (h2_keep_main_arg7 m ρ c).trans ((r1_keep_main_arg7 m ρ c).trans ((h1_keep_main_arg7 m ρ c).trans ((r0_keep_main_arg7 m ρ c).trans (arg7_entry m ρ c))))

end Host

/-! ## The result at the extended reals -/

section AtIdeal

variable (m : (ℓ : Loc nD τ sig) → Buf (Elt Ideal) ℓ) (ρ : Dev nD → PrngReg)

/-- The first region's output: the linear layer of the arguments. -/
theorem lin1 (c : Dev nD) : W4 m ρ c (Proc.devRef .tc main_v30)
    = dense (F := Ideal) (m ((c : Thread nD τ).loc main_arg0)) (m ((c : Thread nD τ).loc main_arg2)) (m ((c : Thread nD τ).loc main_arg3)) := by
  refine (out0_exit m ρ c).trans ((Cert.KernelIdeal.Region0.final (V3 m ρ) c).trans ?_)
  show dense (F := Ideal) (W3 m ρ c (Proc.devRef .tc main_arg0)) (W3 m ρ c (Proc.devRef .tc main_arg2)) (W3 m ρ c (Proc.devRef .tc main_arg3)) = _
  rw [arg0_entry, arg2_entry, arg3_entry]

/-- The second region's input: one message-passing step on the first linear layer. -/
theorem msg1 (c : Dev nD) : W5 m ρ c (Proc.devRef .tc main_v43)
    = aggregate (F := Ideal) (normOf (m ((c : Thread nD τ).loc main_arg1))) (srcOf (m ((c : Thread nD τ).loc main_arg1))) (dstOf (m ((c : Thread nD τ).loc main_arg1)))
        (dense (m ((c : Thread nD τ).loc main_arg0)) (m ((c : Thread nD τ).loc main_arg2)) (m ((c : Thread nD τ).loc main_arg3))) := by
  rw [agg1, norm_at4, src_at4, dst_at4, lin1]

/-- The second region's output: the rectified linear layer of that. -/
theorem lin2 (c : Dev nD) : W6 m ρ c (Proc.devRef .tc main_v44)
    = dense (F := Ideal) (relu (W5 m ρ c (Proc.devRef .tc main_v43))) (m ((c : Thread nD τ).loc main_arg4)) (m ((c : Thread nD τ).loc main_arg5)) := by
  refine (out1_exit m ρ c).trans ((Cert.KernelIdeal.Region1.final (V5 m ρ) c).trans ?_)
  show dense (F := Ideal) (relu (W5 m ρ c (Proc.devRef .tc main_v43))) (W5 m ρ c (Proc.devRef .tc main_arg4)) (W5 m ρ c (Proc.devRef .tc main_arg5)) = _
  rw [arg4_at5, arg5_at5]

/-- The third region's input: one message-passing step on the second linear layer. -/
theorem msg2 (c : Dev nD) : W7 m ρ c (Proc.devRef .tc main_v57)
    = aggregate (F := Ideal) (normOf (m ((c : Thread nD τ).loc main_arg1))) (srcOf (m ((c : Thread nD τ).loc main_arg1))) (dstOf (m ((c : Thread nD τ).loc main_arg1)))
        (W6 m ρ c (Proc.devRef .tc main_v44)) := by
  rw [agg2, norm_at6, src_at6, dst_at6]

/-- The program's result array is the encoder of the eight arguments. -/
theorem result (c : Dev nD) : V8 m ρ c main_v58
    = encoder (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (out2_exit m ρ c).trans ((Cert.KernelIdeal.Region2.final (V7 m ρ) c).trans ?_)
  show lnorm (F := Ideal) (W7 m ρ c (Proc.devRef .tc main_v57)) (W7 m ρ c (Proc.devRef .tc main_arg6)) (W7 m ρ c (Proc.devRef .tc main_arg7)) = _
  rw [arg6_at7, arg7_at7, msg2, lin2, msg1]
  rfl

end AtIdeal

end Cert.KernelIdeal.Composed

end
-- ==== Proof.RefValue.lean ====
/-
  The reference program's result as a function of its arguments.

  The reference is one stretch of host operations: the linear layer, the graph part and a message-passing step, the
  rectifier, the second linear layer, the graph part built a second time from the same edge list and a second
  message-passing step, the row normalisation. Its result term is the encoder of the eight arguments: the second copy of
  the graph part is the same expression of the edge list as the first.
-/
import proofs.«126946_j29618094473824_1_alg».proof.Proof.RefRun
import proofs.«126946_j29618094473824_1_alg».proof.Proof.HostForms

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Forms

variable {F : FTy → Type} [FloatOps F]

/-- The reference's result is the encoder of its arguments. -/
theorem result (m : (ℓ : Loc nD τ sig) → Buf (Elt F) ℓ) (c : Dev nD) :
    Cert.ReferenceIdeal.ValueP.res_main_v118 m c
      = encoder (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v118 encoder lnorm centered rowMean colSpread rowBias aggregate dense relu normOf dinvOf degOf
    wrapCol srcOf dstOf endsOf
  rfl

end Cert.ReferenceIdeal.RefValue

end
-- ==== Proof.lean ====
/-
  A two-layer graph-convolution encoder with a row normalisation, on 50000 nodes with 128 features and 500000 edges.

  The kernel program computes three stages in kernels run over ten blocks of 5000 rows — the linear layer x·W₁ + b₁,
  the rectified linear layer max(a, 0)·W₂ + b₂, the row normalisation — and the message passing between them in host
  operations; it builds the graph part (sources, targets, inverse square-root degrees, edge factors) once. The reference
  is one stretch of host operations and builds the graph part twice, from the same edge list.

  At the extended reals both results are the same function of the eight arguments, the encoder of Proof/HostForms.lean:
  * a kernel's matrix product of rounded operands into a zero accumulator is the finite sum over the 128 features, as the
    host's product is, so each row of a block is the row of x·W + b (Proof/Region0.lean, Proof/Region1.lean);
  * a kernel's lane sums are the finite sums of a row's 128 entries, as the host's sums from zero are, so each row of a
    block is normalised as the host normalises it (Proof/Region2.lean, Proof/LayerNormRead.lean);
  * the ten blocks tile the 50000 rows, so each region's output array is the whole-array stage;
  * the message-passing stretches are the same host operations in both programs and are never opened
    (Proof/KernelValue.lean, Proof/RefValue.lean).
  No law used needs finiteness: the sums are re-indexed, never rearranged against a product.

  The frames of the two kernel programs are the generated ones; the reference's is its run with the result dropped. The
  idealization rewrote no operation, so `preserves` asks nothing.
-/
import proofs.«126946_j29618094473824_1_alg».proof.Defs
import proofs.«126946_j29618094473824_1_alg».proof.Proof.Gen.Kernel
import proofs.«126946_j29618094473824_1_alg».proof.Proof.Gen.Kernel.Skeleton
import proofs.«126946_j29618094473824_1_alg».proof.Proof.Gen.Kernel.Launch
import proofs.«126946_j29618094473824_1_alg».proof.Proof.Gen.Kernel.Points
import proofs.«126946_j29618094473824_1_alg».proof.Proof.Gen.Kernel.Frame
import proofs.«126946_j29618094473824_1_alg».proof.Proof.Gen.KernelIdeal
import proofs.«126946_j29618094473824_1_alg».proof.Proof.Gen.KernelIdeal.Skeleton
import proofs.«126946_j29618094473824_1_alg».proof.Proof.Gen.KernelIdeal.Launch
import proofs.«126946_j29618094473824_1_alg».proof.Proof.Gen.KernelIdeal.Points
import proofs.«126946_j29618094473824_1_alg».proof.Proof.Gen.KernelIdeal.Frame
import proofs.«126946_j29618094473824_1_alg».proof.Proof.Gen.ReferenceIdeal
import proofs.«126946_j29618094473824_1_alg».proof.Proof.Gen.Pre_finite_inputs
import proofs.«126946_j29618094473824_1_alg».proof.Proof.KernelLaunch
import proofs.«126946_j29618094473824_1_alg».proof.Proof.KernelValue
import proofs.«126946_j29618094473824_1_alg».proof.Proof.RefRun
import proofs.«126946_j29618094473824_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the encoder of their arguments in the result array, and the arguments agree. -/
theorem algebraic : Cert.algebraic_KernelIdeal_ReferenceIdeal := by
  intro m ρ m' ρ' _ hagree
  refine ⟨fun c => Cert.ReferenceIdeal.Forms.encoder (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Composed.result m ρ c), (h c).2⟩)
      (Cert.KernelIdeal.Launched.run_main (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.RefValue.result m' c, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
